-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) (main_arg1 : FVec F S4096x2048 .f32) (main_arg2 : IVec S4096 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Kernel.lean ====
abbrev S4096x2048 : Shape := ⟨2, ![4096, 2048]⟩
abbrev S4096 : Shape := ⟨1, ![4096]⟩
abbrev S512x2048 : Shape := ⟨2, ![512, 2048]⟩
abbrev S512 : Shape := ⟨1, ![512]⟩
abbrev S512x1 : Shape := ⟨2, ![512, 1]⟩
abbrev S_ : Shape := ⟨0, ![]⟩

abbrev nBuf : Space → Nat
  | .hbm => 10
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096, .i32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512, .i32⟩
  | .local _ .vmem, ⟨5, _⟩ => ⟨S512, .i32⟩
  | .local _ .vmem, ⟨6, _⟩ => ⟨S512, .f32⟩
  | .local _ .vmem, ⟨7, _⟩ => ⟨S512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  iota_S512x2048_d1_w32 : S512x2048.Iotas .tc 32 [1]
  inb_S512_S512_0 : ∀ a, (![0] : Fin 1 → Nat) a + S512.size a ≤ S512.size a
  h_S512 : 0 < S512.numel
  shapeCasts_S512_S512x1 : S512.ShapeCasts S512x1
  broadcasts_S512x1_S512x2048 : S512x1.Broadcasts S512x2048
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  reducesTo_S4096_S_d0 : S4096.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S4096.size a
  hwx0_2 : ∀ i : grid0.Coords, EltTy.bits .i32 = 32 ∨ (Rect.block (s := S4096) S512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S4096.size a
  hwx0_3 : ∀ i : grid0.Coords, EltTy.bits .f32 = 32 ∨ (Rect.block (s := S4096) S512.size (cc0_transform_3 i) (hinb0_3 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S4096 : Shape := ⟨1, ![4096]⟩
abbrev S2048 : Shape := ⟨1, ![2048]⟩
abbrev S1x2048 : Shape := ⟨2, ![1, 2048]⟩
abbrev S4096x1 : Shape := ⟨2, ![4096, 1]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096, .i32⟩
  | .hbm, ⟨3, _⟩ => ⟨S2048, .i32⟩
  | .hbm, ⟨4, _⟩ => ⟨S1x2048, .i32⟩
  | .hbm, ⟨5, _⟩ => ⟨S4096x1, .i32⟩
  | .hbm, ⟨6, _⟩ => ⟨S4096x2048, .i32⟩
  | .hbm, ⟨7, _⟩ => ⟨S4096x2048, .i32⟩
  | .hbm, ⟨8, _⟩ => ⟨S4096x2048, .i1⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S4096_S4096x1_0 : S4096.BroadcastsInDim S4096x1 (![0] : Fin 1 → Fin S4096x1.rank)
  bcast_S1x2048_S4096x2048_0_1 : S1x2048.BroadcastsInDim S4096x2048 (![0, 1] : Fin 2 → Fin S4096x2048.rank)
  bcast_S4096x1_S4096x2048_0_1 : S4096x1.BroadcastsInDim S4096x2048 (![0, 1] : Fin 2 → Fin S4096x2048.rank)
  bcast_S_S4096x2048 : S_.BroadcastsInDim S4096x2048 (![] : Fin 0 → Fin S4096x2048.rank)
  reducesTo_S4096x2048_S4096_d1 : S4096x2048.ReducesTo [1] S4096
  h_S_ : 0 < S_.numel
  reducesTo_S4096_S_d0 : S4096.ReducesTo [0] S_

variable [Facts₀]

class Facts : Prop extends Facts₀ where

variable [Facts]
-- ==== Proof.MaskedRows.lean ====
/-
  The function both programs compute, stated once over the extended reals.

  A row has a length word `l` (a signed 32-bit integer), predictions `p k` and alignments `a k` for the
  2048 positions `k`. Position `k` contributes the error `p k − log (a k)` when `k < l` as signed words and
  the float zero's value otherwise; the row's value is the sum over `k` of that contribution squared.
  `rowSums` is the array of the 4096 rows' values. What follows it in both programs — each row's value
  divided by its length as a float, the sum of the quotients, and that sum divided by 4096 — is `meanOf`.

  Nothing here needs a finite input: the two programs are compared term by term, never through an
  algebraic law that fails at an infinity.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.MaskedRows

/-- Position `k` of a row whose length word is `l`: the error `p − log a` where `k < l` (signed words), the
    value of the float zero word elsewhere. -/
def maskedErr (l : BitVec 32) (k : Fin 2048) (p a : EReal) : EReal :=
  Scalar.select (IntOp.cmpi .slt (BitVec.ofNat 32 k.val) l) (p - Ideal.log a) (Ideal.ofBits .f32 0x00000000#32)

/-- A row's value: the sum over its positions of the masked error squared. -/
def rowSq (l : BitVec 32) (p a : Fin 2048 → EReal) : EReal :=
  ∑ k : Fin 2048, maskedErr l k (p k) (a k) * maskedErr l k (p k) (a k)

/-- The 4096 rows' values as one array: row `R` reads row `R` of the predictions and of the alignments and
    entry `R` of the lengths. -/
def rowSums (x0 x1 : (⟨2, ![4096, 2048]⟩ : Shape).Idx → EReal) (x2 : (⟨1, ![4096]⟩ : Shape).Idx → BitVec 32) :
    (⟨1, ![4096]⟩ : Shape).Idx → EReal :=
  fun i => rowSq (x2 i) (fun k => x0 (ix2 ⟨(i 0).val, (i 0).isLt⟩ k)) (fun k => x1 (ix2 ⟨(i 0).val, (i 0).isLt⟩ k))

/-- `rowSums` at row `R`. -/
theorem rowSums_ix1 (x0 x1 : (⟨2, ![4096, 2048]⟩ : Shape).Idx → EReal) (x2 : (⟨1, ![4096]⟩ : Shape).Idx → BitVec 32)
    (R : Fin 4096) :
    rowSums x0 x1 x2 (ix1 R) = rowSq (x2 (ix1 R)) (fun k => x0 (ix2 R k)) (fun k => x1 (ix2 R k)) := rfl

/-- What both programs do with the rows' values `s` and the lengths `len`: each value over its length as a
    float, the quotients summed from the float zero, the sum over 4096. -/
def meanOf (s : FVec Ideal ⟨1, ![4096]⟩ .f32) (len : IVec ⟨1, ![4096]⟩ 32)
    (hr : (⟨1, ![4096]⟩ : Shape).ReducesTo [0] ⟨0, ![]⟩) (h0 : 0 < (⟨0, ![]⟩ : Shape).numel) : FVec Ideal ⟨0, ![]⟩ .f32 :=
  Host.divf (F := Ideal)
    (Host.reduceAdd (F := Ideal) (Host.divf (F := Ideal) s (sitofp (F := Ideal) .f32 len))
      (constant (F := Ideal) ⟨0, ![]⟩ .f32 0x00000000#32) hr h0)
    (constant (F := Ideal) ⟨0, ![]⟩ .f32 0x45800000#32)

end Cert.MaskedRows

end
-- ==== Proof.KernelRows.lean ====
/-
  The kernel's side: after the run, the result is `meanOf` of `rowSums` of the argument arrays.

  The grid has 8 points; point `t` stages rows `512·t … 512·t + 511` of the predictions, of the alignments
  and of the lengths, and writes back entries `512·t … 512·t + 511` of the array of row values. The body's one
  stored value at row `r` of its block is the lane sum over the 2048 positions of the masked error squared,
  which is `rowSq` of that row (`pay_apply`): the position number is the lane iota, the row's length is
  the length column broadcast along the lanes, and the lane sum from the zero accumulator is the plain sum.
  So what point `t` writes back is block `t` of `rowSums` of the whole arrays (`flushed_eq`); the 8 blocks
  cover the 4096 entries (entry `i` lies in block `i / 512`), hence the array ends holding `rowSums`
  (`final`). The six host lines after the region divide by the lengths, sum, and divide by 4096: they are
  `meanOf` of that array and of the lengths (`tail_eq`), which the run's post then states (`run`).
-/
import proofs.«143239_j55439437857546_1_alg».proof.Proof.Gen.KernelIdeal.Frame
import proofs.«143239_j55439437857546_1_alg».proof.Proof.MaskedRows
import Idealize.ShloMosaic.Lib.Pipeline.Value
import Idealize.ShloMosaic.Lib.ValueIdx
import Idealize.ShloMosaic.PureOps.Ideal.Laws
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Rows

open Cert.KernelIdeal Cert.KernelIdeal.Gen Cert.MaskedRows

/-! ## The body's stored value at a row -/

/-- The lane reduction's index at row `r`, lane `k`, is the block index `(r, k)`. -/
theorem lift_row (h : S512x2048.Reduces [1] S512) (r : Fin 512) (k : Fin 2048) : h.lift (ix1 r) k = ix2 r k :=
  funext fun a => Fin.ext (by match a with | ⟨0, _⟩ => rfl | ⟨1, _⟩ => rfl)

/-- The lengths `[512]`, viewed as a column `[512, 1]` and broadcast along the lanes to `[512, 2048]`, read at
    `(r, k)`: row `r`'s length, whatever the lane. -/
theorem len_col (v1 : IVec S512 32) (h1 : S512.ShapeCasts S512x1) (h2 : S512x1.Broadcasts S512x2048) (r : Fin 512) (k : Fin 2048) :
    broadcastTo S512x2048 (shapeCast S512x1 v1 h1) h2 (ix2 r k) = v1 (ix1 r) := by
  rw [broadcastTo_apply _ h2 (ix2 r k) (ix2 r (0 : Fin 1)) (fun a => by
    match a with
    | ⟨0, _⟩ => show r.val = if (512 : Nat) = 1 then 0 else r.val; rw [if_neg (by decide)]
    | ⟨1, _⟩ => show (0 : Nat) = if (1 : Nat) = 1 then 0 else k.val; rw [if_pos rfl])]
  exact shapeCast_apply v1 h1 (ix2 r (0 : Fin 1)) (ix1 r) (by
    rw [Shape.rowMajor_val_one, Shape.rowMajor_val_two]; show r.val = r.val * 1 + 0; omega)

/-- The stored value at row `r` of a block with lengths `v1`, predictions `v5` and alignments `v6`: the sum over
    the lanes of the masked error squared, the mask `lane < length` on signed words — `rowSq` of the row. -/
theorem pay_apply (v1 : Vec Ideal S512 .i32) (v5 v6 : Vec Ideal S512x2048 .f32) (r : Fin 512) :
    k0_pay1 (F := Ideal) v1 v5 v6 (ix1 r) = rowSq (v1 (ix1 r)) (fun k => v5 (ix2 r k)) (fun k => v6 (ix2 r k)) := by
  unfold k0_pay1
  dsimp only
  refine (Ideal.multiReduction_add_single _ 0x00000000#32 _ (.inl rfl) rfl (ix1 r)).trans ?_
  unfold rowSq
  refine Finset.sum_congr rfl fun (k : Fin 2048) _ => ?_
  rw [lift_row reduces_S512x2048_S512 r k]
  show Scalar.select (IntOp.cmpi .slt (iota .tc S512x2048 32 [1] iota_S512x2048_d1_w32 (ix2 r k))
        (broadcastTo S512x2048 (shapeCast S512x1 v1 shapeCasts_S512_S512x1) broadcasts_S512x1_S512x2048 (ix2 r k)))
      (v5 (ix2 r k) - Ideal.log (v6 (ix2 r k))) (Ideal.ofBits .f32 0x00000000#32)
    * Scalar.select (IntOp.cmpi .slt (iota .tc S512x2048 32 [1] iota_S512x2048_d1_w32 (ix2 r k))
        (broadcastTo S512x2048 (shapeCast S512x1 v1 shapeCasts_S512_S512x1) broadcasts_S512x1_S512x2048 (ix2 r k)))
      (v5 (ix2 r k) - Ideal.log (v6 (ix2 r k))) (Ideal.ofBits .f32 0x00000000#32) = _
  rw [len_col, iota_single_apply]
  rfl

/-- A block whose rows are rows `512·b + r` of whole arrays `A0`, `A1`, `A2`: the stored value at row `r` is
    `rowSums` of the whole arrays at row `512·b + r`. -/
theorem block_rows (x2 : Vec Ideal S512 .i32) (x0 x1 : Vec Ideal S512x2048 .f32)
    (A0 A1 : S4096x2048.Idx → EReal) (A2 : S4096.Idx → BitVec 32) (b : Nat) (hb : b ≤ 7)
    (h2 : ∀ r : Fin 512, x2 (ix1 r) = A2 (ix1 ⟨b * 512 + r.val, by have := r.isLt; omega⟩))
    (h0 : ∀ (r : Fin 512) (k : Fin 2048), x0 (ix2 r k) = A0 (ix2 ⟨b * 512 + r.val, by have := r.isLt; omega⟩ k))
    (h1 : ∀ (r : Fin 512) (k : Fin 2048), x1 (ix2 r k) = A1 (ix2 ⟨b * 512 + r.val, by have := r.isLt; omega⟩ k))
    (r : Fin 512) :
    k0_pay1 (F := Ideal) x2 x0 x1 (ix1 r) = rowSums A0 A1 A2 (ix1 ⟨b * 512 + r.val, by have := r.isLt; omega⟩) := by
  rw [pay_apply, rowSums_ix1, h2]
  simp only [h0, h1]

/-! ## From the blocks to the array -/

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl

/-- The four index maps over the grid: at every point the three inputs' row-block number is the output's, the
    inputs' lane-block number is 0, and the output's block number is at most 7. -/
theorem idx_facts : ∀ t : Fin cfg0.N, win0_0.index t (0 : Fin 2) = win0_3.index t (0 : Fin 1)
    ∧ win0_0.index t (1 : Fin 2) = 0
    ∧ win0_1.index t (0 : Fin 2) = win0_3.index t (0 : Fin 1)
    ∧ win0_1.index t (1 : Fin 2) = 0
    ∧ win0_2.index t (0 : Fin 1) = win0_3.index t (0 : Fin 1)
    ∧ win0_3.index t (0 : Fin 1) ≤ 7 :=
  (by decide +kernel : ∀ t : Fin grid0.N, _)

/-- Every one of the 8 output blocks is some point's. -/
theorem idx_onto : ∀ q : Fin 8, ∃ t : Fin cfg0.N, win0_3.index t = ![q.val] :=
  (by decide +kernel : ∀ q : Fin 8, ∃ t : Fin grid0.N, win0_3.index t = ![q.val])

/-- What point `t` writes back is block `t` of `rowSums` of the argument arrays as the region finds them. -/
theorem flushed_eq (c : Dev nD) (t : Fin cfg0.N) :
    (dats m 0 c).flushed 3 t = ((cfg0.win 3).blk t).view.read (Elt Ideal)
      (rowSums (V m c main_arg0) (V m c main_arg1) (V m c main_arg2)) := by
  show (cfg0.win 3).cut (grid0.coords t) ((dats m 0 c).after 3 t) = _
  rw [after0_3]
  unfold out0_3
  rw [View.canon_unit_zero hz1]
  simp only [View.ld_unit_zero (S := S512) hz1, View.ld_unit_zero (S := S512x2048) hz2]
  obtain ⟨e0, e1, e2, e3, e4, e5⟩ := idx_facts t
  funext j
  show k0_pay1 (F := Ideal) (iblk m c 2 t) (iblk m c 0 t) (iblk m c 1 t) j
    = rowSums (V m c main_arg0) (V m c main_arg1) (V m c main_arg2) (((cfg0.win 3).blk t).view.emb j)
  have hj : (j 0).val < 512 := (j 0).isLt
  have ej : (j : S512.Idx) = ix1 ⟨(j 0).val, hj⟩ := funext fun a => Fin.ext (by match a with | ⟨0, _⟩ => rfl)
  have eemb : (((cfg0.win 3).blk t).view.emb j : S4096.Idx) = ix1 ⟨win0_3.index t 0 * 512 + (j 0).val, by omega⟩ :=
    funext fun a => Fin.ext (by
      match a with
      | ⟨0, _⟩ => show win0_3.index t (0 : Fin 1) * 512 + 1 * (j 0).val = win0_3.index t 0 * 512 + (j 0).val; omega)
  refine (congrArg (k0_pay1 (F := Ideal) (iblk m c 2 t) (iblk m c 0 t) (iblk m c 1 t)) ej).trans ?_
  refine (block_rows (iblk m c 2 t) (iblk m c 0 t) (iblk m c 1 t) (V m c main_arg0) (V m c main_arg1) (V m c main_arg2)
    (win0_3.index t 0) e5 ?_ ?_ ?_ ⟨(j 0).val, hj⟩).trans ?_
  · intro r
    show V m c main_arg2 (((cfg0.win 2).blk t).view.emb (ix1 r)) = _
    refine congrArg (V m c main_arg2) (funext fun a => Fin.ext ?_)
    match a with
    | ⟨0, _⟩ => show win0_2.index t (0 : Fin 1) * 512 + 1 * r.val = win0_3.index t 0 * 512 + r.val; omega
  · intro r k
    show V m c main_arg0 (((cfg0.win 0).blk t).view.emb (ix2 r k)) = _
    refine congrArg (V m c main_arg0) (funext fun a => Fin.ext ?_)
    match a with
    | ⟨0, _⟩ => show win0_0.index t (0 : Fin 2) * 512 + 1 * r.val = win0_3.index t 0 * 512 + r.val; omega
    | ⟨1, _⟩ => show win0_0.index t (1 : Fin 2) * 2048 + 1 * k.val = k.val; omega
  · intro r k
    show V m c main_arg1 (((cfg0.win 1).blk t).view.emb (ix2 r k)) = _
    refine congrArg (V m c main_arg1) (funext fun a => Fin.ext ?_)
    match a with
    | ⟨0, _⟩ => show win0_1.index t (0 : Fin 2) * 512 + 1 * r.val = win0_3.index t 0 * 512 + r.val; omega
    | ⟨1, _⟩ => show win0_1.index t (1 : Fin 2) * 2048 + 1 * k.val = k.val; omega
  · exact congrArg (rowSums (V m c main_arg0) (V m c main_arg1) (V m c main_arg2)) eemb.symm

/-- An entry of the array of row values is in point `t`'s block iff it lies in the block's 512 entries. -/
theorem mem_blk (t : Fin cfg0.N) (i : S4096.Idx) :
    i ∈ ((cfg0.win 3).blk t).view.set ↔ ∀ a : Fin 1, win0_3.index t a * S512.size a ≤ (i a).val ∧ (i a).val < win0_3.index t a * S512.size a + S512.size a := by
  show i ∈ ((View.whole main_v0).slice (win0_3.rect t)).set ↔ _
  rw [View.set_slice_whole, Rect.mem_set_unit]
  exact Iff.rfl

/-- The array of row values after the run is `rowSums` of the argument arrays: entry `i` is covered by the point
    whose block number is `i / 512`. -/
theorem final (c : Dev nD) :
    (dats m 0 c).arrAt 3 cfg0.N = rowSums (V m c main_arg0) (V m c main_arg1) (V m c main_arg2) :=
  (dats m 0 c).arrAt_eq_of_cover 3 _ (fun t _ => flushed_eq m c t) fun i => by
    have hi : (i 0).val < 4096 := (i 0).isLt
    obtain ⟨t, ht⟩ := idx_onto ⟨(i 0).val / 512, by omega⟩
    have q : win0_3.index t (0 : Fin 1) = (i 0).val / 512 := congrFun ht 0
    refine ⟨t, flush0_3 t, ?_⟩
    rw [mem_blk]
    intro a
    match a with
    | ⟨0, _⟩ => show win0_3.index t (0 : Fin 1) * 512 ≤ (i 0).val ∧ (i 0).val < win0_3.index t (0 : Fin 1) * 512 + 512; omega

/-! ## The host lines after the region, and the run -/

/-- The last host line's result: the lines after the region, applied to the array of row values the region
    left and to the lengths, are `meanOf` of `rowSums`. -/
theorem tail_eq (c : Dev nD) : Pipeline.afterTail₀ cfgs (dats m) 0 (V0 m) [hostOps1] c main_v4
    = meanOf (rowSums (V m c main_arg0) (V m c main_arg1) (V m c main_arg2)) (V m c main_arg2) reducesTo_S4096_S_d0 h_S_ := by
  unfold Pipeline.afterTail₀
  show StableHlo.after hostOps1 _ (Proc.devRef .tc main_v4) = _
  after_results
  have e3 : Pipeline.withArrays (cfgs 0).spec c (V0 m c) (fun w => (dats m 0 c).arrAt w (cfgs 0).N) (Proc.devRef .tc main_v0)
      = rowSums (V m c main_arg0) (V m c main_arg1) (V m c main_arg2) :=
    (Pipeline.withArrays_arr spec0 launch0.win.arr_inj c _ _ 3).trans (final m c)
  have e2 : Pipeline.withArrays (cfgs 0).spec c (V0 m c) (fun w => (dats m 0 c).arrAt w (cfgs 0).N) (Proc.devRef .tc main_arg2)
      = V m c main_arg2 :=
    (Pipeline.withArrays_arr spec0 launch0.win.arr_inj c _ _ 2).trans (((dats m 0 c).arrAt_in 2 rfl _).trans (A_eq m c 2))
  rw [e3, e2]
  rfl

/-- The run, read: every weakly fair execution ends with the result at `meanOf` of `rowSums` of the arguments as
    launched, the arguments unchanged. -/
theorem run : θ_run defs (onTc (τ := τ) (main (F := Ideal))) ⟨m, fun _ => 0, ρ⟩ fun r => ∀ c : Dev nD,
      r.2.mem ((c.tc : Thread nD τ).loc main_v4)
        = meanOf (rowSums (m ((c.tc : Thread nD τ).loc main_arg0)) (m ((c.tc : Thread nD τ).loc main_arg1)) (m ((c.tc : Thread nD τ).loc main_arg2)))
            (m ((c.tc : Thread nD τ).loc main_arg2)) reducesTo_S4096_S_d0 h_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v4 (Pipeline.mem_restRefs_of main_v4 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Rows

end
-- ==== Proof.RefRows.lean ====
/-
  The reference's side: its result is `meanOf` of `rowSums` of the argument arrays.

  The reference builds the mask over the whole `[4096, 2048]` rectangle — the position numbers broadcast down the
  rows against the lengths broadcast along the positions, compared as signed words —, selects `pred − log(align)`
  or the float zero under it, squares, and sums each row from the float zero. Read at `(R, k)` the selected value is
  `maskedErr` of row `R`'s length at position `k` (`sel_apply`); the float zero is the extended real `0`, so the
  row's sum is `rowSq` (`row_apply`) and the summed array is `rowSums` (`rows_eq`). The remaining lines — the
  quotient by the lengths as floats, the sum, the quotient by 4096 — are `meanOf` word for word (`result_eq`).
-/
import proofs.«143239_j55439437857546_1_alg».proof.Proof.Gen.ReferenceIdeal.Read
import proofs.«143239_j55439437857546_1_alg».proof.Proof.MaskedRows
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.ReferenceIdeal.Rows

open Cert.ReferenceIdeal Cert.ReferenceIdeal.Gen Cert.ReferenceIdeal.Read Cert.MaskedRows

/-- The lengths broadcast to a column and then along the positions are read, at `(R, k)`, at entry `R`. -/
theorem len_idx (R : Fin 4096) (k : Fin 2048) : idx_main_v2 (idx_main_v4 (ix2 R k)) = ix1 R :=
  funext fun a => Fin.ext (by match a with | ⟨0, _⟩ => rfl)

/-- The selected value at `(R, k)`: `pred − log(align)` there when `k` is below row `R`'s length as signed
    words, the float zero's value otherwise. -/
theorem sel_apply (x0 x1 : S4096x2048.Idx → EReal) (x2 : S4096.Idx → BitVec 32) (R : Fin 4096) (k : Fin 2048) :
    val_main_v8 (F := Ideal) x0 x1 x2 (ix2 R k) = maskedErr (x2 (ix1 R)) k (x0 (ix2 R k)) (x1 (ix2 R k)) := by
  rw [val_main_v8_apply, val_main_v5_apply, val_main_v3_apply, val_main_v1_apply, val_main_v0_apply,
    val_main_v4_apply, val_main_v2_apply, len_idx, val_main_v7_apply, val_main_v6_apply,
    val_main_call0_v1_apply, val_main_call0_v0_apply, val_main_cst_apply]
  rfl

/-- Row `R`'s sum of the squares, from the float zero (the extended real `0`), is `rowSq` of the row. -/
theorem row_apply (x0 x1 : S4096x2048.Idx → EReal) (x2 : S4096.Idx → BitVec 32) (R : Fin 4096) :
    val_main_v10 (F := Ideal) x0 x1 x2 (ix1 R) = rowSq (x2 (ix1 R)) (fun k => x0 (ix2 R k)) (fun k => x1 (ix2 R k)) := by
  rw [val_main_v10_apply, val_main_cst_0_apply]
  show Ideal.ofBits .f32 0x00000000#32 + _ = _
  rw [Ideal.ofBits_zero_f32, zero_add]
  unfold rowSq
  refine Finset.sum_congr rfl fun (k : Fin 2048) _ => ?_
  have e : idx_main_v10 (ix1 R) k = ix2 R k :=
    funext fun a => Fin.ext (by match a with | ⟨0, _⟩ => rfl | ⟨1, _⟩ => rfl)
  rw [e, val_main_v9_apply, sel_apply]
  rfl

/-- The array of the rows' sums is `rowSums`. -/
theorem rows_eq (x0 x1 : S4096x2048.Idx → EReal) (x2 : S4096.Idx → BitVec 32) :
    val_main_v10 (F := Ideal) x0 x1 x2 = rowSums x0 x1 x2 := by
  funext i
  obtain ⟨R, rfl⟩ : ∃ R : Fin 4096, i = ix1 R :=
    ⟨⟨(i 0).val, (i 0).isLt⟩, funext fun a => Fin.ext (by match a with | ⟨0, _⟩ => rfl)⟩
  rw [row_apply, rowSums_ix1]

/-- The reference's result is `meanOf` of `rowSums` and of the lengths. -/
theorem result_eq (x0 x1 : S4096x2048.Idx → EReal) (x2 : S4096.Idx → BitVec 32) :
    val_main_v14 (F := Ideal) x0 x1 x2 = meanOf (rowSums x0 x1 x2) x2 reducesTo_S4096_S_d0 h_S_ := by
  rw [← rows_eq]
  rfl

end Cert.ReferenceIdeal.Rows

end
-- ==== Proof.lean ====
/-
  A masked mean-squared error, tiled by rows, against the same loss computed on whole arrays.

  Both programs take predictions and alignments `[4096, 2048]` and a length per row. A row's value is the sum
  over its positions `k` of the square of `pred − log(align)` where `k` is below the row's length (signed
  words) and of the float zero elsewhere; the result is the sum over the rows of that value divided by the
  length as a float, divided by 4096. The kernel computes the rows' values in 8 blocks of 512 rows and leaves
  the two divisions and the sum over the rows to the host; the reference computes everything on the host. Over
  the extended reals the two are one term (`Cert.MaskedRows.meanOf` of `rowSums`): the block a grid point writes
  back is the corresponding 512 entries of `rowSums`, the blocks cover the array, the kernel's lane sum and the
  host's row sum are the same sum, the kernel's and the host's logarithm are one function, and the lines after
  the region are the reference's last lines. No algebraic law is used, so the inputs' finiteness is not either.

  The three frames: the kernel's two are the frames of its one pipelined region with the host lines after it;
  the reference's is its run with the result dropped. The idealization rewrote nothing, so `preserves` is `True`.
-/
import proofs.«143239_j55439437857546_1_alg».proof.Defs
import proofs.«143239_j55439437857546_1_alg».proof.Proof.Gen.Kernel
import proofs.«143239_j55439437857546_1_alg».proof.Proof.Gen.Kernel.Skeleton
import proofs.«143239_j55439437857546_1_alg».proof.Proof.Gen.Kernel.Launch
import proofs.«143239_j55439437857546_1_alg».proof.Proof.Gen.Kernel.Points
import proofs.«143239_j55439437857546_1_alg».proof.Proof.Gen.Kernel.Frame
import proofs.«143239_j55439437857546_1_alg».proof.Proof.Gen.KernelIdeal
import proofs.«143239_j55439437857546_1_alg».proof.Proof.Gen.KernelIdeal.Skeleton
import proofs.«143239_j55439437857546_1_alg».proof.Proof.Gen.KernelIdeal.Launch
import proofs.«143239_j55439437857546_1_alg».proof.Proof.Gen.KernelIdeal.Points
import proofs.«143239_j55439437857546_1_alg».proof.Proof.Gen.KernelIdeal.Frame
import proofs.«143239_j55439437857546_1_alg».proof.Proof.Gen.ReferenceIdeal
import proofs.«143239_j55439437857546_1_alg».proof.Proof.Gen.Pre_finite_inputs
import proofs.«143239_j55439437857546_1_alg».proof.Proof.Gen.ReferenceIdeal.Run
import proofs.«143239_j55439437857546_1_alg».proof.Proof.Gen.ReferenceIdeal.Read
import proofs.«143239_j55439437857546_1_alg».proof.Proof.MaskedRows
import proofs.«143239_j55439437857546_1_alg».proof.Proof.KernelRows
import proofs.«143239_j55439437857546_1_alg».proof.Proof.RefRows
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments both programs end at `meanOf` of `rowSums` of them: the kernel
    by its run read through the 8 blocks and the host lines after the region, the reference by its run read one
    operation at a time. -/
theorem algebraic : Cert.algebraic_KernelIdeal_ReferenceIdeal := by
  intro m ρ m' ρ' _ hagree
  refine ⟨_, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.Rows.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
